-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3x3 : Shape := ⟨3, ![262144, 3, 3]⟩
abbrev S262144 : Shape := ⟨1, ![262144]⟩
abbrev S4194304 : Shape := ⟨1, ![4194304]⟩
abbrev S_ : Shape := ⟨0, ![]⟩

class Facts : Prop where
  bcast_S_S262144x3x3 : S_.BroadcastsInDim S262144x3x3 (![] : Fin 0 → Fin S262144x3x3.rank)
  reducesTo_S262144x3x3_S_d0_1_2 : S262144x3x3.ReducesTo [0, 1, 2] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x3x3 .f32) (main_arg1 : FVec F S262144x3x3 .f32) (main_arg2 : FVec F S262144 .f32) (main_arg3 : IVec S4194304 32) (main_arg4 : IVec S4194304 32) : IVec S_ 1 :=
  let main_v0 : FVec F S262144x3x3 .f32 := Host.absf main_arg0
  let main_cst : FVec F S_ .f32 := constant S_ .f32 0x7F800000#32
  let main_v1 : FVec F S262144x3x3 .f32 := broadcastInDim S262144x3x3 ![] bcast_S_S262144x3x3 main_cst
  let main_v2 : IVec S262144x3x3 1 := cmpf .olt main_v0 main_v1
  let main_c : IVec S_ 1 := constantI S_ 1 1#1
  let main_v3 : IVec S_ 1 := (fun x v => Host.reduce IntOp.andi x v reducesTo_S262144x3x3_S_d0_1_2 h_S_) main_v2 main_c
  let main_v4 : FVec F S262144x3x3 .f32 := Host.absf main_arg1
  let main_cst_0 : FVec F S_ .f32 := constant S_ .f32 0x7F800000#32
  let main_v5 : FVec F S262144x3x3 .f32 := broadcastInDim S262144x3x3 ![] bcast_S_S262144x3x3 main_cst_0
  let main_v6 : IVec S262144x3x3 1 := cmpf .olt main_v4 main_v5
  let main_c_1 : IVec S_ 1 := constantI S_ 1 1#1
  let main_v7 : IVec S_ 1 := (fun x v => Host.reduce IntOp.andi x v reducesTo_S262144x3x3_S_d0_1_2 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  main_v13
-- ==== Kernel.lean ====
abbrev S262144x3x3 : Shape := ⟨3, ![262144, 3, 3]⟩
abbrev S262144 : Shape := ⟨1, ![262144]⟩
abbrev S4194304 : Shape := ⟨1, ![4194304]⟩
abbrev S262144x1x3 : Shape := ⟨3, ![262144, 1, 3]⟩
abbrev S262144x3 : Shape := ⟨2, ![262144, 3]⟩
abbrev S3x262144 : Shape := ⟨2, ![3, 262144]⟩
abbrev S_ : Shape := ⟨0, ![]⟩
abbrev S4194304x1 : Shape := ⟨2, ![4194304, 1]⟩
abbrev S3x4194304 : Shape := ⟨2, ![3, 4194304]⟩
abbrev S1x1 : Shape := ⟨2, ![1, 1]⟩
abbrev S3x32768 : Shape := ⟨2, ![3, 32768]⟩
abbrev S32768 : Shape := ⟨1, ![32768]⟩
abbrev S1x32768 : Shape := ⟨2, ![1, 32768]⟩
abbrev S1 : Shape := ⟨1, ![1]⟩

abbrev nBuf : Space → Nat
  | .hbm => 51
  | .vmem => 10
  | .smem => 0
  | _ => 0

abbrev bufTy : (tb : Table) → Fin (tcTables nBuf tb) → BufTy
  | .hbm, ⟨0, _⟩ => ⟨S262144x3x3, .f32⟩
  | .hbm, ⟨1, _⟩ => ⟨S262144x3x3, .f32⟩
  | .hbm, ⟨2, _⟩ => ⟨S262144, .f32⟩
  | .hbm, ⟨3, _⟩ => ⟨S4194304, .i32⟩
  | .hbm, ⟨4, _⟩ => ⟨S4194304, .i32⟩
  | .hbm, ⟨5, _⟩ => ⟨S262144x1x3, .f32⟩
  | .hbm, ⟨6, _⟩ => ⟨S262144x3, .f32⟩
  | .hbm, ⟨7, _⟩ => ⟨S262144x1x3, .f32⟩
  | .hbm, ⟨8, _⟩ => ⟨S262144x3, .f32⟩
  | .hbm, ⟨9, _⟩ => ⟨S3x262144, .f32⟩
  | .hbm, ⟨10, _⟩ => ⟨S3x262144, .f32⟩
  | .hbm, ⟨11, _⟩ => ⟨S_, .i32⟩
  | .hbm, ⟨12, _⟩ => ⟨S4194304, .i32⟩
  | .hbm, ⟨13, _⟩ => ⟨S4194304, .i1⟩
  | .hbm, ⟨14, _⟩ => ⟨S_, .i32⟩
  | .hbm, ⟨15, _⟩ => ⟨S4194304, .i32⟩
  | .hbm, ⟨16, _⟩ => ⟨S4194304, .i32⟩
  | .hbm, ⟨17, _⟩ => ⟨S4194304, .i32⟩
  | .hbm, ⟨18, _⟩ => ⟨S4194304x1, .i32⟩
  | .hbm, ⟨19, _⟩ => ⟨S3x4194304, .f32⟩
  | .hbm, ⟨20, _⟩ => ⟨S_, .i32⟩
  | .hbm, ⟨21, _⟩ => ⟨S4194304, .i32⟩
  | .hbm, ⟨22, _⟩ => ⟨S4194304, .i1⟩
  | .hbm, ⟨23, _⟩ => ⟨S_, .i32⟩
  | .hbm, ⟨24, _⟩ => ⟨S4194304, .i32⟩
  | .hbm, ⟨25, _⟩ => ⟨S4194304, .i32⟩
  | .hbm, ⟨26, _⟩ => ⟨S4194304, .i32⟩
  | .hbm, ⟨27, _⟩ => ⟨S4194304x1, .i32⟩
  | .hbm, ⟨28, _⟩ => ⟨S3x4194304, .f32⟩
  | .hbm, ⟨29, _⟩ => ⟨S_, .i32⟩
  | .hbm, ⟨30, _⟩ => ⟨S4194304, .i32⟩
  | .hbm, ⟨31, _⟩ => ⟨S4194304, .i1⟩
  | .hbm, ⟨32, _⟩ => ⟨S_, .i32⟩
  | .hbm, ⟨33, _⟩ => ⟨S4194304, .i32⟩
  | .hbm, ⟨34, _⟩ => ⟨S4194304, .i32⟩
  | .hbm, ⟨35, _⟩ => ⟨S4194304, .i32⟩
  | .hbm, ⟨36, _⟩ => ⟨S4194304x1, .i32⟩
  | .hbm, ⟨37, _⟩ => ⟨S3x4194304, .f32⟩
  | .hbm, ⟨38, _⟩ => ⟨S_, .i32⟩
  | .hbm, ⟨39, _⟩ => ⟨S4194304, .i32⟩
  | .hbm, ⟨40, _⟩ => ⟨S4194304, .i1⟩
  | .hbm, ⟨41, _⟩ => ⟨S_, .i32⟩
  | .hbm, ⟨42, _⟩ => ⟨S4194304, .i32⟩
  | .hbm, ⟨43, _⟩ => ⟨S4194304, .i32⟩
  | .hbm, ⟨44, _⟩ => ⟨S4194304, .i32⟩
  | .hbm, ⟨45, _⟩ => ⟨S4194304x1, .i32⟩
  | .hbm, ⟨46, _⟩ => ⟨S3x4194304, .f32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S3x32768, .f32⟩
  | .local _ .vmem, ⟨1, _⟩ => ⟨S3x32768, .f32⟩
  | .local _ .vmem, ⟨2, _⟩ => ⟨S3x32768, .f32⟩
  | .local _ .vmem, ⟨3, _⟩ => ⟨S3x32768, .f32⟩
  | .local _ .vmem, ⟨4, _⟩ => ⟨S3x32768, .f32⟩
  | .local _ .vmem, ⟨5, _⟩ => ⟨S3x32768, .f32⟩
  | .local _ .vmem, ⟨6, _⟩ => ⟨S3x32768, .f32⟩
  | .local _ .vmem, ⟨7, _⟩ => ⟨S3x32768, .f32⟩
  | .local _ .vmem, ⟨8, _⟩ => ⟨S1x1, .f32⟩
  | .local _ .vmem, ⟨9, _⟩ => ⟨S1x1, .f32⟩
  | _, _ => ⟨S262144x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v30 : BitVec 1 := Scalar.cmpi .eq arg0 c127_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S262144x3x3_S262144x1x3_0_1_0 : S262144x3x3.Slices ![0, 1, 0] S262144x1x3
  shapeCasts_S262144x1x3_S262144x3 : S262144x1x3.ShapeCasts S262144x3
  transposes_S262144x3_S3x262144_1_0 : S262144x3.Transposes [1, 0] S3x262144
  bcast_S_S4194304 : S_.BroadcastsInDim S4194304 (![] : Fin 0 → Fin S4194304.rank)
  bcast_S4194304_S4194304x1_0 : S4194304.BroadcastsInDim S4194304x1 (![0] : Fin 1 → Fin S4194304x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  reduces_S3x32768_S32768 : S3x32768.Reduces [0] S32768
  shapeCasts_S32768_S1x32768 : S32768.ShapeCasts S1x32768
  reduces_S1x32768_S1 : S1x32768.Reduces [1] S1
  shapeCasts_S1_S1x1 : S1.ShapeCasts S1x1
  shapeCasts_S1x1_S_ : S1x1.ShapeCasts S_
  gather_S3x262144_S4194304x1_S3x4194304_0_1_n_n_1_1_31_wf : GatherDims.WF S3x262144 S4194304x1 S3x4194304 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x4194304.size a
  hwx0_0 : ∀ i : grid0.Coords, EltTy.bits .f32 = 32 ∨ (Rect.block (s := S3x4194304) S3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x4194304.size a
  hwx0_1 : ∀ i : grid0.Coords, EltTy.bits .f32 = 32 ∨ (Rect.block (s := S3x4194304) S3x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x32768.size a ≤ S3x4194304.size a
  hwx0_2 : ∀ i : grid0.Coords, EltTy.bits .f32 = 32 ∨ (Rect.block (s := S3x4194304) S3x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x32768.size a ≤ S3x4194304.size a
  hwx0_3 : ∀ i : grid0.Coords, EltTy.bits .f32 = 32 ∨ (Rect.block (s := S3x4194304) S3x32768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S3x262144_S4194304x1_S3x4194304_0_1_n_n_1_1_31 : GatherDims S3x262144 S4194304x1 S3x4194304 where
  offsetDims := [0]
  collapsedSliceDims := [1]
  operandBatchingDims := []
  startIndicesBatchingDims := []
  startIndexMap := [1]
  indexVectorDim := 1
  sliceSizes := ![3, 1]
  wf := gather_S3x262144_S4194304x1_S3x4194304_0_1_n_n_1_1_31_wf

abbrev win0_0 : Pipeline.Window sig grid0 :=
  Pipeline.Window.ofSpec (Memref.whole main_v12) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S3x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S3x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x3x3 : Shape := ⟨3, ![262144, 3, 3]⟩
abbrev S262144 : Shape := ⟨1, ![262144]⟩
abbrev S4194304 : Shape := ⟨1, ![4194304]⟩
abbrev S262144x1x3 : Shape := ⟨3, ![262144, 1, 3]⟩
abbrev S262144x3 : Shape := ⟨2, ![262144, 3]⟩
abbrev S_ : Shape := ⟨0, ![]⟩
abbrev S4194304x1 : Shape := ⟨2, ![4194304, 1]⟩
abbrev S4194304x3 : Shape := ⟨2, ![4194304, 3]⟩

abbrev nBuf : Space → Nat
  | .hbm => 61
  | .vmem => 0
  | .smem => 0
  | _ => 0

abbrev bufTy : (tb : Table) → Fin (tcTables nBuf tb) → BufTy
  | .hbm, ⟨0, _⟩ => ⟨S262144x3x3, .f32⟩
  | .hbm, ⟨1, _⟩ => ⟨S262144x3x3, .f32⟩
  | .hbm, ⟨2, _⟩ => ⟨S262144, .f32⟩
  | .hbm, ⟨3, _⟩ => ⟨S4194304, .i32⟩
  | .hbm, ⟨4, _⟩ => ⟨S4194304, .i32⟩
  | .hbm, ⟨5, _⟩ => ⟨S262144x1x3, .f32⟩
  | .hbm, ⟨6, _⟩ => ⟨S262144x3, .f32⟩
  | .hbm, ⟨7, _⟩ => ⟨S262144x1x3, .f32⟩
  | .hbm, ⟨8, _⟩ => ⟨S262144x3, .f32⟩
  | .hbm, ⟨9, _⟩ => ⟨S_, .i32⟩
  | .hbm, ⟨10, _⟩ => ⟨S4194304, .i32⟩
  | .hbm, ⟨11, _⟩ => ⟨S4194304, .i1⟩
  | .hbm, ⟨12, _⟩ => ⟨S_, .i32⟩
  | .hbm, ⟨13, _⟩ => ⟨S4194304, .i32⟩
  | .hbm, ⟨14, _⟩ => ⟨S4194304, .i32⟩
  | .hbm, ⟨15, _⟩ => ⟨S4194304, .i32⟩
  | .hbm, ⟨16, _⟩ => ⟨S4194304x1, .i32⟩
  | .hbm, ⟨17, _⟩ => ⟨S4194304x3, .f32⟩
  | .hbm, ⟨18, _⟩ => ⟨S_, .i32⟩
  | .hbm, ⟨19, _⟩ => ⟨S4194304, .i32⟩
  | .hbm, ⟨20, _⟩ => ⟨S4194304, .i1⟩
  | .hbm, ⟨21, _⟩ => ⟨S_, .i32⟩
  | .hbm, ⟨22, _⟩ => ⟨S4194304, .i32⟩
  | .hbm, ⟨23, _⟩ => ⟨S4194304, .i32⟩
  | .hbm, ⟨24, _⟩ => ⟨S4194304, .i32⟩
  | .hbm, ⟨25, _⟩ => ⟨S4194304x1, .i32⟩
  | .hbm, ⟨26, _⟩ => ⟨S4194304x3, .f32⟩
  | .hbm, ⟨27, _⟩ => ⟨S4194304x3, .f32⟩
  | .hbm, ⟨28, _⟩ => ⟨S4194304x3, .f32⟩
  | .hbm, ⟨29, _⟩ => ⟨S_, .f32⟩
  | .hbm, ⟨30, _⟩ => ⟨S4194304, .f32⟩
  | .hbm, ⟨31, _⟩ => ⟨S4194304, .f32⟩
  | .hbm, ⟨32, _⟩ => ⟨S_, .i32⟩
  | .hbm, ⟨33, _⟩ => ⟨S4194304, .i32⟩
  | .hbm, ⟨34, _⟩ => ⟨S4194304, .i1⟩
  | .hbm, ⟨35, _⟩ => ⟨S_, .i32⟩
  | .hbm, ⟨36, _⟩ => ⟨S4194304, .i32⟩
  | .hbm, ⟨37, _⟩ => ⟨S4194304, .i32⟩
  | .hbm, ⟨38, _⟩ => ⟨S4194304, .i32⟩
  | .hbm, ⟨39, _⟩ => ⟨S4194304x1, .i32⟩
  | .hbm, ⟨40, _⟩ => ⟨S4194304x3, .f32⟩
  | .hbm, ⟨41, _⟩ => ⟨S_, .i32⟩
  | .hbm, ⟨42, _⟩ => ⟨S4194304, .i32⟩
  | .hbm, ⟨43, _⟩ => ⟨S4194304, .i1⟩
  | .hbm, ⟨44, _⟩ => ⟨S_, .i32⟩
  | .hbm, ⟨45, _⟩ => ⟨S4194304, .i32⟩
  | .hbm, ⟨46, _⟩ => ⟨S4194304, .i32⟩
  | .hbm, ⟨47, _⟩ => ⟨S4194304, .i32⟩
  | .hbm, ⟨48, _⟩ => ⟨S4194304x1, .i32⟩
  | .hbm, ⟨49, _⟩ => ⟨S4194304x3, .f32⟩
  | .hbm, ⟨50, _⟩ => ⟨S4194304x3, .f32⟩
  | .hbm, ⟨51, _⟩ => ⟨S4194304x3, .f32⟩
  | .hbm, ⟨52, _⟩ => ⟨S_, .f32⟩
  | .hbm, ⟨53, _⟩ => ⟨S4194304, .f32⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S262144x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  slices_S262144x3x3_S262144x1x3_0_1_0 : S262144x3x3.Slices ![0, 1, 0] S262144x1x3
  shapeCasts_S262144x1x3_S262144x3 : S262144x1x3.ShapeCasts S262144x3
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S4194304x3_S4194304_d1 : S4194304x3.ReducesTo [1] S4194304
  h_S_ : 0 < S_.numel
  reducesTo_S4194304_S_d0 : S4194304.ReducesTo [0] S_
  gather_S262144x3_S4194304x1_S4194304x3_1_0_n_n_0_1_13_wf : GatherDims.WF S262144x3 S4194304x1 S4194304x3 [1] [0] [] [0] [] 1 ![1, 3]

variable [Facts₀]

def gather_S262144x3_S4194304x1_S4194304x3_1_0_n_n_0_1_13 : GatherDims S262144x3 S4194304x1 S4194304x3 where
  offsetDims := [1]
  collapsedSliceDims := [0]
  operandBatchingDims := []
  startIndicesBatchingDims := []
  startIndexMap := [0]
  indexVectorDim := 1
  sliceSizes := ![1, 3]
  wf := gather_S262144x3_S4194304x1_S4194304x3_1_0_n_n_0_1_13_wf

class Facts : Prop extends Facts₀ where

variable [Facts]
-- ==== Proof.KernelBody.lean ====
/-
  The kernel's body, read as values. At every grid point the body adds, to what the scratch accumulator holds, the point's
  block sum: over the 32768 pairs of the point's four [3 × 32768] blocks, the distance between the first two blocks' columns
  minus the distance between the last two blocks' columns, squared. At the first point the accumulator is reset to zero first;
  at the last point the accumulator is also copied to the output block.
-/
import proofs.«136389_j83056077570644_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.ValueIdx

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A MIDDLE point (neither first nor last): the accumulator holding `xs` is left at the body's sum payload of the four
    blocks and `xs`. -/
theorem scratch_B (c : Dev nD) (i : grid0.Coords) (a1 : Memref sig .tc .vmem S3x32768 .f32) (h1 : a1.IsWhole)
    (a2 : Memref sig .tc .vmem S3x32768 .f32) (h2 : a2.IsWhole) (a3 : Memref sig .tc .vmem S3x32768 .f32) (h3 : a3.IsWhole)
    (a4 : Memref sig .tc .vmem S3x32768 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 x1 x2 x3 : Vec F S3x32768 .f32) (xs : Vec F S1x1 .f32) :
    sout0_B_0 c i a1 h1 a2 h2 a3 h3 a4 h4 a5 h5 a6 h6 hc0 hc1 x0 x1 x2 x3 xs = k0_pay2 x0 x1 x2 x3 xs := by
  unfold sout0_B_0
  rw [View.read_writes_eq_canon _ _ _ (scover0_B_0 c i a1 h1 a2 h2 a3 h3 a4 h4 a5 h5 a6 h6 hc0 hc1 x0 x1 x2 x3 xs)]
  unfold kernelRun0_B
  dsimp only
  sl_unfold_words
  rw [View.canon_unit_zero hz]
  simp only [View.readAt_eq_ld, h1.read_unread, h2.read_unread, h3.read_unread, h4.read_unread, h6.read_unread,
    View.ld_unit_zero (S := S3x32768) hz, View.ld_unit_zero (S := S1x1) hz]

/-- The FIRST point: the accumulator is reset to the zero block, read back, and left at the sum payload of the four blocks
    and that zero block. -/
theorem scratch_A (c : Dev nD) (i : grid0.Coords) (a1 : Memref sig .tc .vmem S3x32768 .f32) (h1 : a1.IsWhole)
    (a2 : Memref sig .tc .vmem S3x32768 .f32) (h2 : a2.IsWhole) (a3 : Memref sig .tc .vmem S3x32768 .f32) (h3 : a3.IsWhole)
    (a4 : Memref sig .tc .vmem S3x32768 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 x1 x2 x3 : Vec F S3x32768 .f32) :
    sout0_A_0 c i a1 h1 a2 h2 a3 h3 a4 h4 a5 h5 a6 h6 hc0 hc1 x0 x1 x2 x3 = k0_pay2 x0 x1 x2 x3 (k0_pay1 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h6.read_unread,
    View.ld_unit_zero (S := S3x32768) hz, View.ld_unit_zero (S := S1x1) hz]

/-- The LAST point: the accumulator as at a middle point, -/
theorem scratch_C (c : Dev nD) (i : grid0.Coords) (a1 : Memref sig .tc .vmem S3x32768 .f32) (h1 : a1.IsWhole)
    (a2 : Memref sig .tc .vmem S3x32768 .f32) (h2 : a2.IsWhole) (a3 : Memref sig .tc .vmem S3x32768 .f32) (h3 : a3.IsWhole)
    (a4 : Memref sig .tc .vmem S3x32768 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 x2 x3 : Vec F S3x32768 .f32) (xs : Vec F S1x1 .f32) :
    sout0_C_0 c i a1 h1 a2 h2 a3 h3 a4 h4 a5 h5 a6 h6 hc0 hc1 x0 x1 x2 x3 xs = k0_pay2 x0 x1 x2 x3 xs := by
  unfold sout0_C_0
  rw [View.read_writes_eq_canon _ _ _ (scover0_C_0 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread,
    View.ld_unit_zero (S := S3x32768) hz, View.ld_unit_zero (S := S1x1) hz]

/-- and the output block a copy of it. -/
theorem out_C (c : Dev nD) (i : grid0.Coords) (a1 : Memref sig .tc .vmem S3x32768 .f32) (h1 : a1.IsWhole)
    (a2 : Memref sig .tc .vmem S3x32768 .f32) (h2 : a2.IsWhole) (a3 : Memref sig .tc .vmem S3x32768 .f32) (h3 : a3.IsWhole)
    (a4 : Memref sig .tc .vmem S3x32768 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 x2 x3 : Vec F S3x32768 .f32) (xs : Vec F S1x1 .f32) :
    out0_C_4 c i a1 h1 a2 h2 a3 h3 a4 h4 a5 h5 a6 h6 hc0 hc1 x0 x1 x2 x3 xs = k0_pay2 x0 x1 x2 x3 xs := by
  unfold out0_C_4
  rw [View.read_writes_eq_canon _ _ _ (cover0_C_4 c i a1 h1 a2 h2 a3 h3 a4 h4 a5 h5 a6 h6 hc0 hc1 x0 x1 x2 x3 xs)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h6.read_unread,
    View.ld_unit_zero (S := S3x32768) hz, View.ld_unit_zero (S := S1x1) hz]

/-! ## The sum payload at the ideal instance -/

/-- One pair's term from four blocks: the distance between columns `q` of the first two blocks minus the distance between
    columns `q` of the last two, squared. -/
def colTerm (x0 x1 x2 x3 : FVec Ideal S3x32768 .f32) (q : Fin 32768) : EReal :=
  (Ideal.sqrt (∑ k : Fin 3, (x0 (ix2 k q) - x1 (ix2 k q)) * (x0 (ix2 k q) - x1 (ix2 k q)))
      - Ideal.sqrt (∑ k : Fin 3, (x2 (ix2 k q) - x3 (ix2 k q)) * (x2 (ix2 k q) - x3 (ix2 k q))))
    * (Ideal.sqrt (∑ k : Fin 3, (x0 (ix2 k q) - x1 (ix2 k q)) * (x0 (ix2 k q) - x1 (ix2 k q)))
      - Ideal.sqrt (∑ k : Fin 3, (x2 (ix2 k q) - x3 (ix2 k q)) * (x2 (ix2 k q) - x3 (ix2 k q))))

/-- The square root of a vector, read at an index. -/
theorem sqrt_apply {s : Shape} {φ : FTy} (a : FVec Ideal s φ) (i : s.Idx) : sqrt a i = Ideal.sqrt (a i) := rfl

/-- The sum over the coordinate axis of a [3 × 32768] block, kept as a [1 × 32768] row, read at column `q`: the sum of the
    column's three entries. -/
theorem coordSum_apply (v : FVec Ideal S3x32768 .f32) (hφ : FKind.Formats .f32)
    (hacc : (0x00000000#32 : BitVec 32) = 0x00000000#32) (q : Fin 32768) :
    shapeCast S1x32768 (multiReduction .add [0] S32768 v 0x00000000#32 reduces_S3x32768_S32768 hφ hacc)
        shapeCasts_S32768_S1x32768 (ix2 (0 : Fin 1) q)
      = ∑ k : Fin 3, v (ix2 k q) := by
  refine (shapeCast_a_1a_apply _ _ _ _).trans ?_
  refine (Ideal.multiReduction_add_single v 0x00000000#32 reduces_S3x32768_S32768 hφ hacc (ix1 q)).trans ?_
  refine Finset.sum_congr rfl fun k _ => congrArg v (funext fun a => Fin.ext ?_)
  match a with
  | ⟨0, _⟩ => rfl
  | ⟨1, _⟩ => rfl

/-- The sum over the pair axis of a [1 × 32768] row, kept as a [1 × 1] block, read at its one index: the sum of the row. -/
theorem pairSum_apply (v : FVec Ideal S1x32768 .f32) (hφ : FKind.Formats .f32)
    (hacc : (0x00000000#32 : BitVec 32) = 0x00000000#32) :
    shapeCast S1x1 (multiReduction .add [1] S1 v 0x00000000#32 reduces_S1x32768_S1 hφ hacc)
        shapeCasts_S1_S1x1 (ix2 (0 : Fin 1) (0 : Fin 1))
      = ∑ q : Fin 32768, v (ix2 (0 : Fin 1) q) := by
  refine (shapeCast_a_1a_apply _ _ _ _).trans ?_
  refine (Ideal.multiReduction_add_single v 0x00000000#32 reduces_S1x32768_S1 hφ hacc (ix1 (0 : Fin 1))).trans ?_
  refine Finset.sum_congr rfl fun q _ => congrArg v (funext fun a => Fin.ext ?_)
  match a with
  | ⟨0, _⟩ => rfl
  | ⟨1, _⟩ => rfl

/-- The body's sum payload at its one index: what the accumulator held plus the block's sum of the pairs' terms. -/
theorem pay2_apply (x0 x1 x2 x3 : FVec Ideal S3x32768 .f32) (acc : FVec Ideal S1x1 .f32) :
    k0_pay2 (F := Ideal) x0 x1 x2 x3 acc (ix2 (0 : Fin 1) (0 : Fin 1))
      = acc (ix2 (0 : Fin 1) (0 : Fin 1)) + ∑ q : Fin 32768, colTerm x0 x1 x2 x3 q := by
  unfold k0_pay2
  simp only [shapeCast_self]
  refine congrArg (acc (ix2 (0 : Fin 1) (0 : Fin 1)) + ·) ?_
  refine (pairSum_apply _ _ _).trans (Finset.sum_congr rfl fun q _ => ?_)
  simp only [mulf_apply, subf_apply, sqrt_apply]
  rw [coordSum_apply, coordSum_apply]
  rfl

/-- The reset's zero block holds the extended real zero. -/
theorem pay1_apply : k0_pay1 (F := Ideal) (ix2 (0 : Fin 1) (0 : Fin 1)) = 0 := by
  unfold k0_pay1
  simp only [shapeCast_self]
  exact Ideal.ofBits_zero_f32

end Cert.KernelIdeal.Body

end
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.LibColGather.lean ====
/-
  The column gather of a rank-2 table read at an index: the table is laid out coordinate-major, `[C × N]`, and the gather
  picks, for each entry `e` of a column of start indices, the whole column `idx[e, 0]` of the table. Generic in the record
  of dimension numbers and in the extents; the record's fields are hypotheses, each an `rfl` at a literal record.
-/
import Idealize.ShloMosaic.PureOps.Ideal
import Idealize.ShloMosaic.Lib.ValueIdx
import Idealize.ShloMosaic.Lib.StableHlo.Predicate
import proofs.«136389_j83056077570644_1_alg».proof.Proof.LibGatherScatter

namespace Cert.LibColGather

open Idealize.ShloMosaic
open Idealize.ShloMosaic.ValueIdx
open Idealize.ShloMosaic.StableHlo.Predicate
open Cert.LibGatherScatter (getElem_of_eq_singleton)

/-- The row of an `N`-row table that entry `e` of an `[n × 1]` column of start indices picks: its index word read SIGNED
    and CLAMPED into `[0, N − 1]`, which is how a gather whose slice is one whole row (or column) reads it. -/
def pickRow {n w : Nat} (N : Nat) (hN : 0 < N) (idx : IVec ⟨2, ![n, 1]⟩ w) (e : Fin n) : Fin N :=
  ⟨min (idx (ixP e)).toInt.toNat (N - 1), by omega⟩

/-- THE COLUMN GATHER. A `stablehlo.gather` of a rank-2 table `[C × N]` at an `[n × 1]` column of start indices, whose
    column axis is collapsed and start-indexed, whose row axis is the one offset axis with the whole column as the slice,
    without batching axes and with the index vector on axis 1: result element `(q, e)` is the table at row `q`, column
    `idx[e, 0]` read SIGNED and CLAMPED into `[0, N − 1]`. -/
theorem colGather_apply {α : Type} {N C n w : Nat} (d : GatherDims ⟨2, ![C, N]⟩ ⟨2, ![n, 1]⟩ ⟨2, ![C, n]⟩)
    (hoff : d.offsetDims = [0]) (hcoll : d.collapsedSliceDims = [1]) (hob : d.operandBatchingDims = [])
    (hsim : d.startIndexMap = [1]) (hivd : d.indexVectorDim = 1)
    (hss : d.sliceSizes = ![C, 1]) (hN : 0 < N)
    (x : (⟨2, ![C, N]⟩ : Shape).Idx → α) (idx : IVec ⟨2, ![n, 1]⟩ w) (q : Fin C) (e : Fin n) :
    Host.gather d x idx (ix2 q e) = x (ix2 q (pickRow N hN idx e)) := by
  unfold Host.gather pickRow
  congr 1
  funext a
  apply Fin.ext
  have hb : ∀ a : Fin 2, a ∉ d.operandBatchingDims := fun a => by rw [hob]; exact List.not_mem_nil
  match a with
  | ⟨0, _⟩ =>
    have hk : (0 : Fin 2) ∈ d.sKept := by rw [GatherDims.mem_sKept, hcoll, hob]; simp
    have hm : (0 : Fin 2) ∉ d.startIndexMap := by rw [hsim]; simp
    show d.start (ix2 q e) idx 0 + d.batchCoord (ix2 q e) 0 + d.offCoord (ix2 q e) 0 = q.val
    rw [GatherDims.batchCoord_eq_zero _ _ _ (hb 0)]
    simp only [Nat.add_zero, GatherDims.start, dif_neg hm, GatherDims.offCoord, dif_pos hk, Nat.zero_add]
    have key : ∀ X : Fin 2, X = 0 → ((ix2 q e : (⟨2, ![C, n]⟩ : Shape).Idx) X).val = q.val := by
      rintro _ rfl; rfl
    exact key _ (getElem_of_eq_singleton hoff _ _)
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := by rw [hss]; rfl
    show d.start (ix2 q e) idx 1 + d.batchCoord (ix2 q e) 1 + d.offCoord (ix2 q e) 1 = min (idx (ixP e)).toInt.toNat (N - 1)
    rw [GatherDims.batchCoord_eq_zero _ _ _ (hb 1), GatherDims.offCoord_eq_zero _ _ _ hk]
    simp only [Nat.add_zero, GatherDims.start, dif_pos hm]
    show min (idx _).toInt.toNat (N - d.sliceSizes 1) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [1] := by
        show Shape.kept _ d.offsetDims = [1]
        rw [hoff]; rfl
      have key : ∀ X : Fin 2, X = 1 → ((ix2 q e : (⟨2, ![C, n]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (1 : Fin 2) d.startIndexMap = 0
      rw [hsim]; simp

/-- The row gather (Cert.LibGatherScatter.rowGather_apply) with the picked row named. -/
theorem rowGather_pick {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 (pickRow N hN idx e) q) :=
  Cert.LibGatherScatter.rowGather_apply d hoff hcoll hob hsb hsim hivd hss hN x idx e q

end Cert.LibColGather
-- ==== Proof.KernelArrays.lean ====
/-
  The four arrays the kernel region reads, as the host operations before it leave them, and their blocks. Each is a gather
  of columns: the middle point (index 1 of the second axis) of every residue of an argument, laid out coordinate-major as
  [3 × 262144], gathered at a column of start indices (jnp's normalised `left` or `right`) into [3 × 4194304]. Entry
  `(k, p)` is coordinate `k` of the table row that pair `p`'s index picks, and the block of window `w` at grid point `t`
  is columns `32768 t … 32768 t + 32767` of its array.
-/
import proofs.«136389_j83056077570644_1_alg».proof.Proof.Gen.KernelIdeal.Frame
import proofs.«136389_j83056077570644_1_alg».proof.Proof.LibColGather
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.ValueIdx

namespace Cert.KernelIdeal.Arrays

open Cert.KernelIdeal Cert.KernelIdeal.Gen Cert.LibColGather

variable {F : FTy → Type} [FloatOps F]

/-- The middle point of every residue of an argument, one point per row. -/
def tabOf (x : FVec F S262144x3x3 .f32) : FVec F S262144x3 .f32 :=
  shapeCast S262144x3 (extractStridedSlice S262144x1x3 ![0, 1, 0] x slices_S262144x3x3_S262144x1x3_0_1_0)
    shapeCasts_S262144x1x3_S262144x3

/-- jnp's index normalisation of an index vector (a negative index counts from the end), kept as a column. -/
def colOf (v : IVec S4194304 32) : IVec S4194304x1 32 :=
  broadcastInDim S4194304x1 ![0] bcast_S4194304_S4194304x1_0
    (select (cmpi .slt v (broadcastInDim S4194304 ![] bcast_S_S4194304 (constantI S_ 32 0#32)))
      (addi v (broadcastInDim S4194304 ![] bcast_S_S4194304 (constantI S_ 32 262144#32))) v)

/-- The table laid out coordinate-major and gathered at the index column. -/
def gathered (x : FVec F S262144x3x3 .f32) (v : IVec S4194304 32) : FVec F S3x4194304 .f32 :=
  Host.gather gather_S3x262144_S4194304x1_S3x4194304_0_1_n_n_1_1_31
    (transpose S3x262144 [1, 0] (tabOf x) transposes_S262144x3_S3x262144_1_0) (colOf v)

/-- The table row pair `p` picks through an index vector. -/
def rowOf (v : IVec S4194304 32) (p : Fin 4194304) : Fin 262144 := pickRow 262144 (by norm_num) (colOf v) p

/-- Entry `(k, p)` of a gathered array is coordinate `k` of the row pair `p` picks. -/
theorem gathered_apply (x : FVec F S262144x3x3 .f32) (v : IVec S4194304 32) (k : Fin 3) (p : Fin 4194304) :
    gathered x v (ix2 k p) = tabOf x (ix2 (rowOf v p) k) := by
  unfold gathered rowOf
  refine (colGather_apply gather_S3x262144_S4194304x1_S3x4194304_0_1_n_n_1_1_31 rfl rfl rfl rfl rfl rfl (by norm_num) _ _ k p).trans ?_
  exact transpose_ix2_apply _ _ _ _

variable (m : (ℓ : Loc nD τ sig) → Buf (Elt F) ℓ)

/-- What the region finds in its four operand arrays. -/
theorem V_main_v12 (c : Dev nD) :
    V m c main_v12 = gathered (m ((c.tc : Thread nD τ).loc main_arg0)) (m ((c.tc : Thread nD τ).loc main_arg3)) := by
  show StableHlo.after hostOps0 (fun b => m (c, b)) (Proc.devRef .tc main_v12) = _
  after_results; rfl
set_option maxRecDepth 8192 in
set_option maxHeartbeats 4000000 in
theorem V_main_v19 (c : Dev nD) :
    V m c main_v19 = gathered (m ((c.tc : Thread nD τ).loc main_arg0)) (m ((c.tc : Thread nD τ).loc main_arg4)) := by
  show StableHlo.after hostOps0 (fun b => m (c, b)) (Proc.devRef .tc main_v19) = _
  after_results_simp <;> rfl
set_option maxRecDepth 8192 in
set_option maxHeartbeats 4000000 in
theorem V_main_v26 (c : Dev nD) :
    V m c main_v26 = gathered (m ((c.tc : Thread nD τ).loc main_arg1)) (m ((c.tc : Thread nD τ).loc main_arg3)) := by
  show StableHlo.after hostOps0 (fun b => m (c, b)) (Proc.devRef .tc main_v26) = _
  after_results_simp <;> rfl
set_option maxRecDepth 8192 in
set_option maxHeartbeats 4000000 in
theorem V_main_v33 (c : Dev nD) :
    V m c main_v33 = gathered (m ((c.tc : Thread nD τ).loc main_arg1)) (m ((c.tc : Thread nD τ).loc main_arg4)) := by
  show StableHlo.after hostOps0 (fun b => m (c, b)) (Proc.devRef .tc main_v33) = _
  after_results_simp <;> rfl

end Cert.KernelIdeal.Arrays

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.PairLoss.lean ====
/-
  The loss as ONE function of two coordinate tables and two row-index maps, over the extended reals: for each of the
  4194304 sampled pairs the Euclidean distance between the two picked points in the first table minus the same distance
  in the second table, squared; the loss is the sum of these over all pairs (the mean's division by the pair count is
  applied to it by both programs alike). The sum over all pairs is also the sum over 128 consecutive blocks of 32768
  pairs of each block's own sum, which is how a blocked accumulation reaches it: addition of extended reals is commutative
  and associative, so no finiteness is asked.
-/
import Idealize.ShloMosaic.PureOps.Ideal
import Idealize.ShloMosaic.Lib.ValueIdx
import proofs.«136389_j83056077570644_1_alg».proof.Proof.LibSumBlocks

noncomputable section

namespace Cert.PairLoss

open Idealize.ShloMosaic Idealize.ShloMosaic.ValueIdx
open scoped BigOperators

/-- A table of 262144 points of 3-space, one point per row. -/
abbrev Tab : Shape := ⟨2, ![262144, 3]⟩

/-- The squared Euclidean distance between the points in rows `l` and `r` of a table. -/
def sqDist (T : Tab.Idx → EReal) (l r : Fin 262144) : EReal :=
  ∑ k : Fin 3, (T (ix2 l k) - T (ix2 r k)) * (T (ix2 l k) - T (ix2 r k))

/-- One pair's term: the distance in the first table minus the distance in the second, squared. -/
def pairTerm (Tin Ttg : Tab.Idx → EReal) (l r : Fin 262144) : EReal :=
  (Ideal.sqrt (sqDist Tin l r) - Ideal.sqrt (sqDist Ttg l r)) * (Ideal.sqrt (sqDist Tin l r) - Ideal.sqrt (sqDist Ttg l r))

variable (Tin Ttg : Tab.Idx → EReal) (L R : Fin 4194304 → Fin 262144)

/-- Pair `p`'s term, its two rows picked by the index maps. -/
def pairAt (p : Fin 4194304) : EReal := pairTerm Tin Ttg (L p) (R p)

/-- The sum over all pairs. -/
def total : EReal := ∑ p : Fin 4194304, pairAt Tin Ttg L R p

/-- Pair `q` of block `t`, of 128 blocks of 32768 pairs. -/
abbrev pairIx (t : Fin 128) (q : Fin 32768) : Fin 4194304 :=
  ⟨32768 * t.val + q.val, LibSumBlocks.block_lt (A := 128) (B := 32768) (by norm_num) t q⟩

/-- Block `t`'s own sum. -/
def blockSum (t : Fin 128) : EReal := ∑ q : Fin 32768, pairAt Tin Ttg L R (pairIx t q)

/-- The blocks' sums add up to the sum over all pairs. -/
theorem sum_blockSum : ∑ t : Fin 128, blockSum Tin Ttg L R t = total Tin Ttg L R :=
  LibSumBlocks.sum_blocks (A := 128) (B := 32768) (N := 4194304) (by norm_num) (pairAt Tin Ttg L R)

/-- The running sum after block `n`: blocks `0 … n`. -/
def running (n : ℕ) (hn : n < 128) : EReal :=
  ∑ t : Fin (n + 1), blockSum Tin Ttg L R ⟨t.val, Nat.lt_of_lt_of_le t.isLt (Nat.succ_le_of_lt hn)⟩

theorem running_zero (h : 0 < 128) : running Tin Ttg L R 0 h = blockSum Tin Ttg L R ⟨0, h⟩ := by
  unfold running
  rw [Fin.sum_univ_one]
  rfl

theorem running_succ (n : ℕ) (hn : n + 1 < 128) :
    running Tin Ttg L R (n + 1) hn = running Tin Ttg L R n (Nat.lt_of_succ_lt hn) + blockSum Tin Ttg L R ⟨n + 1, hn⟩ := by
  unfold running
  rw [Fin.sum_univ_castSucc]
  rfl

/-- After the last block the running sum is the sum over all pairs. -/
theorem running_last (h : 127 < 128) : running Tin Ttg L R 127 h = total Tin Ttg L R := by
  unfold running
  exact sum_blockSum Tin Ttg L R

/-- The loss as both programs end it: the sum over all pairs divided by the pair count's float word (4194304.0). -/
def lossOf (s : EReal) : (⟨0, ![]⟩ : Shape).Idx → EReal := fun _ => Ideal.div s (Ideal.ofBits .f32 0x4A800000#32)

end Cert.PairLoss

end
-- ==== Proof.KernelAcc.lean ====
/-
  The kernel's run, read as a value. The scratch accumulator after grid point `n` holds the sum of the blocks' sums of
  points `0 … n` (by induction on the point: the first point resets it to zero and adds its block's sum, every later point
  adds its own); the last point copies it to the [1 × 1] output array, the one write-back of the run; the host operations
  after the region read that entry and divide it by the pair count.
-/
import proofs.«136389_j83056077570644_1_alg».proof.Proof.KernelBody
import proofs.«136389_j83056077570644_1_alg».proof.Proof.KernelArrays
import proofs.«136389_j83056077570644_1_alg».proof.Proof.PairLoss

noncomputable section

open Idealize.ShloMosaic Idealize.ShloMosaic.TcCoe Idealize.SL.Sem
open Idealize.ShloMosaic.ValueIdx
open Idealize.ShloMosaic.Pipeline (Dat)

namespace Cert.KernelIdeal.Acc

open Cert.KernelIdeal Cert.KernelIdeal.Gen Cert.KernelIdeal.Body Cert.KernelIdeal.Arrays

variable (m : (ℓ : Loc nD τ sig) → Buf (Elt Ideal) ℓ) (ρ : Dev nD → PrngReg)

/-- The two coordinate tables and the two row-index maps the loss is a function of, read off the arguments. -/
abbrev Tin (c : Dev nD) : PairLoss.Tab.Idx → EReal := tabOf (F := Ideal) (m ((c.tc : Thread nD τ).loc main_arg0))
abbrev Ttg (c : Dev nD) : PairLoss.Tab.Idx → EReal := tabOf (F := Ideal) (m ((c.tc : Thread nD τ).loc main_arg1))
abbrev Lr (c : Dev nD) : Fin 4194304 → Fin 262144 := rowOf (m ((c.tc : Thread nD τ).loc main_arg3))
abbrev Rr (c : Dev nD) : Fin 4194304 → Fin 262144 := rowOf (m ((c.tc : Thread nD τ).loc main_arg4))

theorem lt128 (t : Fin cfg0.N) : t.val < 128 := lt_of_lt_of_eq t.isLt (show cfg0.N = 128 from N_0)

/-- Every input window's block index at grid point `t` is `(0, t)`. -/
theorem idx_facts : ∀ t : Fin cfg0.N,
    (win0_0.index t 0 = 0 ∧ win0_0.index t 1 = t.val) ∧ (win0_1.index t 0 = 0 ∧ win0_1.index t 1 = t.val)
      ∧ (win0_2.index t 0 = 0 ∧ win0_2.index t 1 = t.val) ∧ (win0_3.index t 0 = 0 ∧ win0_3.index t 1 = t.val) :=
  (by decide +kernel : ∀ t : Fin grid0.N,
    (win0_0.index t 0 = 0 ∧ win0_0.index t 1 = t.val) ∧ (win0_1.index t 0 = 0 ∧ win0_1.index t 1 = t.val)
      ∧ (win0_2.index t 0 = 0 ∧ win0_2.index t 1 = t.val) ∧ (win0_3.index t 0 = 0 ∧ win0_3.index t 1 = t.val))

/-- The input blocks at a point, typed by their literal shape. -/
abbrev blk0 (c : Dev nD) (t : Fin cfg0.N) : FVec Ideal S3x32768 .f32 := iblk m c 0 t
abbrev blk1 (c : Dev nD) (t : Fin cfg0.N) : FVec Ideal S3x32768 .f32 := iblk m c 1 t
abbrev blk2 (c : Dev nD) (t : Fin cfg0.N) : FVec Ideal S3x32768 .f32 := iblk m c 2 t
abbrev blk3 (c : Dev nD) (t : Fin cfg0.N) : FVec Ideal S3x32768 .f32 := iblk m c 3 t

theorem blk0_apply (c : Dev nD) (t : Fin cfg0.N) (k : Fin 3) (q : Fin 32768) :
    blk0 m c t (ix2 k q) = Tin m c (ix2 (Lr m c (PairLoss.pairIx ⟨t.val, lt128 t⟩ q)) k) := by
  show iblk m c 0 t (ix2 k q) = _
  unfold iblk
  rw [View.read_apply]
  show V m c main_v12 _ = _
  rw [V_main_v12 m c]
  refine Eq.trans ?_ (gathered_apply (F := Ideal) (m ((c.tc : Thread nD τ).loc main_arg0)) (m ((c.tc : Thread nD τ).loc main_arg3)) k
    (PairLoss.pairIx ⟨t.val, lt128 t⟩ q))
  congr 1
  funext a
  apply Fin.ext
  match a with
  | ⟨0, _⟩ => show win0_0.index t 0 * 3 + 1 * k.val = k.val; rw [(idx_facts t).1.1]; omega
  | ⟨1, _⟩ => show win0_0.index t 1 * 32768 + 1 * q.val = 32768 * t.val + q.val; rw [(idx_facts t).1.2]; omega

theorem blk1_apply (c : Dev nD) (t : Fin cfg0.N) (k : Fin 3) (q : Fin 32768) :
    blk1 m c t (ix2 k q) = Tin m c (ix2 (Rr m c (PairLoss.pairIx ⟨t.val, lt128 t⟩ q)) k) := by
  show iblk m c 1 t (ix2 k q) = _
  unfold iblk
  rw [View.read_apply]
  show V m c main_v19 _ = _
  rw [V_main_v19 m c]
  refine Eq.trans ?_ (gathered_apply (F := Ideal) (m ((c.tc : Thread nD τ).loc main_arg0)) (m ((c.tc : Thread nD τ).loc main_arg4)) k
    (PairLoss.pairIx ⟨t.val, lt128 t⟩ q))
  congr 1
  funext a
  apply Fin.ext
  match a with
  | ⟨0, _⟩ => show win0_1.index t 0 * 3 + 1 * k.val = k.val; rw [(idx_facts t).2.1.1]; omega
  | ⟨1, _⟩ => show win0_1.index t 1 * 32768 + 1 * q.val = 32768 * t.val + q.val; rw [(idx_facts t).2.1.2]; omega

theorem blk2_apply (c : Dev nD) (t : Fin cfg0.N) (k : Fin 3) (q : Fin 32768) :
    blk2 m c t (ix2 k q) = Ttg m c (ix2 (Lr m c (PairLoss.pairIx ⟨t.val, lt128 t⟩ q)) k) := by
  show iblk m c 2 t (ix2 k q) = _
  unfold iblk
  rw [View.read_apply]
  show V m c main_v26 _ = _
  rw [V_main_v26 m c]
  refine Eq.trans ?_ (gathered_apply (F := Ideal) (m ((c.tc : Thread nD τ).loc main_arg1)) (m ((c.tc : Thread nD τ).loc main_arg3)) k
    (PairLoss.pairIx ⟨t.val, lt128 t⟩ q))
  congr 1
  funext a
  apply Fin.ext
  match a with
  | ⟨0, _⟩ => show win0_2.index t 0 * 3 + 1 * k.val = k.val; rw [(idx_facts t).2.2.1.1]; omega
  | ⟨1, _⟩ => show win0_2.index t 1 * 32768 + 1 * q.val = 32768 * t.val + q.val; rw [(idx_facts t).2.2.1.2]; omega

theorem blk3_apply (c : Dev nD) (t : Fin cfg0.N) (k : Fin 3) (q : Fin 32768) :
    blk3 m c t (ix2 k q) = Ttg m c (ix2 (Rr m c (PairLoss.pairIx ⟨t.val, lt128 t⟩ q)) k) := by
  show iblk m c 3 t (ix2 k q) = _
  unfold iblk
  rw [View.read_apply]
  show V m c main_v33 _ = _
  rw [V_main_v33 m c]
  refine Eq.trans ?_ (gathered_apply (F := Ideal) (m ((c.tc : Thread nD τ).loc main_arg1)) (m ((c.tc : Thread nD τ).loc main_arg4)) k
    (PairLoss.pairIx ⟨t.val, lt128 t⟩ q))
  congr 1
  funext a
  apply Fin.ext
  match a with
  | ⟨0, _⟩ => show win0_3.index t 0 * 3 + 1 * k.val = k.val; rw [(idx_facts t).2.2.2.1]; omega
  | ⟨1, _⟩ => show win0_3.index t 1 * 32768 + 1 * q.val = 32768 * t.val + q.val; rw [(idx_facts t).2.2.2.2]; omega

/-- A point's block sum, from its four blocks, is the loss function's block sum. -/
theorem blockSum_eq (c : Dev nD) (t : Fin cfg0.N) :
    ∑ q : Fin 32768, colTerm (blk0 m c t) (blk1 m c t) (blk2 m c t) (blk3 m c t) q
      = PairLoss.blockSum (Tin m c) (Ttg m c) (Lr m c) (Rr m c) ⟨t.val, lt128 t⟩ := by
  unfold PairLoss.blockSum
  refine Finset.sum_congr rfl fun q _ => ?_
  unfold colTerm PairLoss.pairAt PairLoss.pairTerm PairLoss.sqDist
  simp only [blk0_apply, blk1_apply, blk2_apply, blk3_apply]

/-- THE ACCUMULATION: after point `n` the scratch accumulator's one entry is the running sum of the blocks' sums. -/
theorem acc_eq (c : Dev nD) : ∀ (n : ℕ) (hn : n < cfg0.N),
    (outsAt0 m c n hn).2 (ix2 (0 : Fin 1) (0 : Fin 1))
      = PairLoss.running (Tin m c) (Ttg m c) (Lr m c) (Rr m c) n (lt128 ⟨n, hn⟩)
  | 0, hn => by
    have h0 : (⟨0, hn⟩ : Fin cfg0.N).val % 128 = 0 := rfl
    have h1 : ¬(⟨0, hn⟩ : Fin cfg0.N).val % 128 = 127 := by dsimp only; omega
    rw [outsAt0_A m c ⟨0, hn⟩ h0 h1]
    dsimp only
    refine (congrFun (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩)) (ix2 (0 : Fin 1) (0 : Fin 1))).trans ?_
    refine (pay2_apply (blk0 m c ⟨0, hn⟩) (blk1 m c ⟨0, hn⟩) (blk2 m c ⟨0, hn⟩) (blk3 m c ⟨0, hn⟩) (k0_pay1 (F := Ideal))).trans ?_
    rw [pay1_apply, zero_add, PairLoss.running_zero]
    exact blockSum_eq m c ⟨0, hn⟩
  | n + 1, hn => by
    have hN : n + 1 < 128 := lt128 ⟨n + 1, hn⟩
    have h0 : ¬(⟨n + 1, hn⟩ : Fin cfg0.N).val % 128 = 0 := by dsimp only; omega
    have ih := acc_eq c n (Nat.lt_of_succ_lt hn)
    by_cases h1 : (⟨n + 1, hn⟩ : Fin cfg0.N).val % 128 = 127
    · rw [outsAt0_C m c ⟨n + 1, hn⟩ h0 h1]
      dsimp only
      refine (congrFun (scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2) (ix2 (0 : Fin 1) (0 : Fin 1))).trans ?_
      refine (pay2_apply (blk0 m c ⟨n + 1, hn⟩) (blk1 m c ⟨n + 1, hn⟩) (blk2 m c ⟨n + 1, hn⟩) (blk3 m c ⟨n + 1, hn⟩) (outsAt0 m c n (Nat.lt_of_succ_lt hn)).2).trans ?_
      rw [ih, PairLoss.running_succ, blockSum_eq m c ⟨n + 1, hn⟩]
    · rw [outsAt0_B m c ⟨n + 1, hn⟩ h0 h1]
      dsimp only
      refine (congrFun (scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2) (ix2 (0 : Fin 1) (0 : Fin 1))).trans ?_
      refine (pay2_apply (blk0 m c ⟨n + 1, hn⟩) (blk1 m c ⟨n + 1, hn⟩) (blk2 m c ⟨n + 1, hn⟩) (blk3 m c ⟨n + 1, hn⟩) (outsAt0 m c n (Nat.lt_of_succ_lt hn)).2).trans ?_
      rw [ih, PairLoss.running_succ, blockSum_eq m c ⟨n + 1, hn⟩]

/-! ## The output array after the run, and the host operations after the region -/

/-- The last grid point, the only one that writes the output block back. -/
abbrev tLast : Fin cfg0.N := ⟨127, lt_of_lt_of_eq (by decide : 127 < 128) (show cfg0.N = 128 from N_0).symm⟩

/-- What the [1 × 1] output array ends holding: the sum over all pairs. -/
abbrev result (c : Dev nD) : Buf (Elt Ideal) ((c.tc : Thread nD τ).loc main_v34) :=
  fun _ => PairLoss.total (Tin m c) (Ttg m c) (Lr m c) (Rr m c)

/-- At the last point the output block is a copy of the accumulator, which by then holds the sum over all pairs. -/
theorem out_last (c : Dev nD) : (outsAt0 m c tLast.val tLast.isLt).1 = result m c := by
  have h0 : ¬(tLast : Fin cfg0.N).val % 128 = 0 := by dsimp only; omega
  have h1 : (tLast : Fin cfg0.N).val % 128 = 127 := rfl
  have h126 : 126 < cfg0.N := Nat.lt_of_succ_lt tLast.isLt
  have e := acc_eq m c tLast.val tLast.isLt
  rw [outsAt0_C m c tLast h0 h1] at e ⊢
  dsimp only at e ⊢
  funext y
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  refine (congrFun (out_C (F := Ideal) c (grid0.coords tLast) (ms0_0 tLast) (hs0_0 tLast) (ms0_1 tLast) (hs0_1 tLast) (ms0_2 tLast) (hs0_2 tLast) (ms0_3 tLast) (hs0_3 tLast) (ms0_4 tLast) (hs0_4 tLast) scM0_0 (Memref.isWhole_whole _) (fun h => h0 ((hcond0_0 tLast).mp h)) ((hcond0_1 tLast).mpr h1) (iblk m c 0 tLast) (iblk m c 1 tLast) (iblk m c 2 tLast) (iblk m c 3 tLast) (outsAt0 m c 126 h126).2) (ix2 (0 : Fin 1) (0 : Fin 1))).trans ?_
  refine (congrFun (scratch_C (F := Ideal) c (grid0.coords tLast) (ms0_0 tLast) (hs0_0 tLast) (ms0_1 tLast) (hs0_1 tLast) (ms0_2 tLast) (hs0_2 tLast) (ms0_3 tLast) (hs0_3 tLast) (ms0_4 tLast) (hs0_4 tLast) scM0_0 (Memref.isWhole_whole _) (fun h => h0 ((hcond0_0 tLast).mp h)) ((hcond0_1 tLast).mpr h1) (iblk m c 0 tLast) (iblk m c 1 tLast) (iblk m c 2 tLast) (iblk m c 3 tLast) (outsAt0 m c 126 h126).2) (ix2 (0 : Fin 1) (0 : Fin 1))).symm.trans ?_
  exact e.trans (PairLoss.running_last _ _ _ _ _)

/-- The one write-back, at the last point, writes it: block (0, 0) of the [1 × 1] array read through zero offsets is the array. -/
theorem flushed_eq (c : Dev nD) (t : Fin cfg0.N) (hf : (cfg0.win 4).flush t = true) :
    (dats m 0 c).flushed 4 t = ((cfg0.win 4).blk t).view.read (Elt Ideal) (result m c) := by
  have h127 : t.val = 127 := by have := (flush0_4 t).mp hf; have := lt128 t; omega
  obtain rfl : t = tLast := Fin.ext h127
  show (cfg0.win 4).cut (grid0.coords tLast) ((dats m 0 c).after 4 tLast) = _
  rw [after0_4, out_last]
  have hz' : (fun a => win0_4.index tLast a * main_v34.ty.shape.size a) = fun _ => 0 :=
    funext fun a => by fin_cases a <;> decide +kernel
  exact (Memref.read_access_unit_zero (Elt Ideal) main_v34 hz' (fun a => by rw [congrFun hz' a]; simp) (result m c)).symm

/-- So the output array ends holding the sum over all pairs: the last point's block covers it. -/
theorem final_out (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v34).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]; omega⟩

/-- The host operations after the region: the array's one entry read as a scalar, divided by the pair count. -/
theorem tail_eq (c : Dev nD) :
    Pipeline.afterTail₀ cfgs (dats m) 0 (V0 m) [hostOps1] c main_v36
      = PairLoss.lossOf (PairLoss.total (Tin m c) (Ttg m c) (Lr m c) (Rr m c)) := by
  unfold Pipeline.afterTail₀
  show StableHlo.after hostOps1 _ (Proc.devRef .tc main_v36) = _
  after_results
  have hw : Pipeline.withArrays (cfgs 0).spec c (V0 m c) (fun w => (dats m 0 c).arrAt w (cfgs 0).N) (Proc.devRef .tc main_v34)
      = result m c :=
    (Pipeline.withArrays_arr spec0 launch0.win.arr_inj c _ _ 4).trans (final_out m c)
  rw [hw]
  rfl

/-- THE KERNEL'S RUN, READ: the result at the loss function of the arguments' tables and row maps, the arguments unchanged. -/
theorem run : θ_run defs (onTc (τ := τ) (main (F := Ideal))) ⟨m, fun _ => 0, ρ⟩ fun r => ∀ c : Dev nD,
      r.2.mem ((c.tc : Thread nD τ).loc main_v36) = PairLoss.lossOf (PairLoss.total (Tin m c) (Ttg m c) (Lr m c) (Rr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v36 (Pipeline.mem_restRefs_of main_v36 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.RefValue.lean ====
/-
  The reference's result at the ideal instance, read one operation at a time: its row gathers pick, for pair `p`, the table
  rows its two index columns name (read signed and clamped); a norm is the square root of the sum of the three squared
  coordinate differences (the host's sum starts from zero); the result is the sum over all pairs of the squared difference
  of the two norms, divided by the pair count.
-/
import proofs.«136389_j83056077570644_1_alg».proof.Defs
import proofs.«136389_j83056077570644_1_alg».proof.Proof.Gen.ReferenceIdeal.Run
import proofs.«136389_j83056077570644_1_alg».proof.Proof.Gen.ReferenceIdeal.Read
import proofs.«136389_j83056077570644_1_alg».proof.Proof.LibColGather
import proofs.«136389_j83056077570644_1_alg».proof.Proof.PairLoss
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read Cert.LibColGather
open scoped BigOperators

/-- A sum over the indices of a rank-1 shape is the sum over its one coordinate. -/
theorem sum_idx1 {M : Type*} [AddCommMonoid M] {n : Nat} (f : (⟨1, ![n]⟩ : Shape).Idx → M) :
    ∑ j, f j = ∑ p : Fin n, f (ix1 p) :=
  Fintype.sum_equiv ⟨fun j => j 0, ix1, fun j => (eq_ix1 j).symm, fun _ => rfl⟩ _ _ fun j => congrArg f (eq_ix1 j)

variable (x0 x1 : FVec Ideal S262144x3x3 .f32) (x3 x4 : IVec S4194304 32)

/-- The table row pair `p` picks through the reference's normalised `left` and `right` columns. -/
abbrev Lr (p : Fin 4194304) : Fin 262144 := pickRow 262144 (by norm_num) (val_main_v9 (F := Ideal) x3) p
abbrev Rr (p : Fin 4194304) : Fin 262144 := pickRow 262144 (by norm_num) (val_main_v16 (F := Ideal) x4) p

theorem v10_apply (p : Fin 4194304) (k : Fin 3) :
    val_main_v10 (F := Ideal) x0 x3 (ix2 p k) = val_main_v1 (F := Ideal) x0 (ix2 (Lr x3 p) k) := by
  unfold val_main_v10
  exact rowGather_pick gather_S262144x3_S4194304x1_S4194304x3_1_0_n_n_0_1_13 rfl rfl rfl rfl rfl rfl rfl (by norm_num) _ _ p k
theorem v17_apply (p : Fin 4194304) (k : Fin 3) :
    val_main_v17 (F := Ideal) x0 x4 (ix2 p k) = val_main_v1 (F := Ideal) x0 (ix2 (Rr x4 p) k) := by
  unfold val_main_v17
  exact rowGather_pick gather_S262144x3_S4194304x1_S4194304x3_1_0_n_n_0_1_13 rfl rfl rfl rfl rfl rfl rfl (by norm_num) _ _ p k
theorem v26_apply (p : Fin 4194304) (k : Fin 3) :
    val_main_v26 (F := Ideal) x1 x3 (ix2 p k) = val_main_v3 (F := Ideal) x1 (ix2 (Lr x3 p) k) := by
  unfold val_main_v26
  exact rowGather_pick gather_S262144x3_S4194304x1_S4194304x3_1_0_n_n_0_1_13 rfl rfl rfl rfl rfl rfl rfl (by norm_num) _ _ p k
theorem v33_apply (p : Fin 4194304) (k : Fin 3) :
    val_main_v33 (F := Ideal) x1 x4 (ix2 p k) = val_main_v3 (F := Ideal) x1 (ix2 (Rr x4 p) k) := by
  unfold val_main_v33
  exact rowGather_pick gather_S262144x3_S4194304x1_S4194304x3_1_0_n_n_0_1_13 rfl rfl rfl rfl rfl rfl rfl (by norm_num) _ _ p k

theorem idx_call0 (p : Fin 4194304) (k : Fin 3) : idx_main_call0_v1 (ix1 p) k = ix2 p k :=
  funext fun a => Fin.ext (by match a with | ⟨0, _⟩ => rfl | ⟨1, _⟩ => rfl)
theorem idx_call1 (p : Fin 4194304) (k : Fin 3) : idx_main_call1_v1 (ix1 p) k = ix2 p k :=
  funext fun a => Fin.ext (by match a with | ⟨0, _⟩ => rfl | ⟨1, _⟩ => rfl)

/-- The first norm at pair `p`: the distance between the two picked rows of the first table. -/
theorem v19_apply (p : Fin 4194304) :
    val_main_v19 (F := Ideal) x0 x3 x4 (ix1 p)
      = Ideal.sqrt (PairLoss.sqDist (val_main_v1 (F := Ideal) x0) (Lr x3 p) (Rr x4 p)) := by
  rw [val_main_v19_apply, val_main_call0_v1_apply]
  unfold PairLoss.sqDist
  simp only [val_main_call0_cst_apply, val_main_call0_v0_apply, val_main_v18_apply, idx_call0, v10_apply, v17_apply,
    Ideal.hostUnary_sqrt_def, Ideal.mulf_def, Ideal.subf_def, Ideal.ofBits_def, Ideal.ofBits_zero_f32, zero_add]

/-- The second norm at pair `p`: the same distance in the second table. -/
theorem v35_apply (p : Fin 4194304) :
    val_main_v35 (F := Ideal) x1 x3 x4 (ix1 p)
      = Ideal.sqrt (PairLoss.sqDist (val_main_v3 (F := Ideal) x1) (Lr x3 p) (Rr x4 p)) := by
  rw [val_main_v35_apply, val_main_call1_v1_apply]
  unfold PairLoss.sqDist
  simp only [val_main_call1_cst_apply, val_main_call1_v0_apply, val_main_v34_apply, idx_call1, v26_apply, v33_apply,
    Ideal.hostUnary_sqrt_def, Ideal.mulf_def, Ideal.subf_def, Ideal.ofBits_def, Ideal.ofBits_zero_f32, zero_add]

/-- Pair `p`'s squared difference of norms is the loss function's term. -/
theorem v37_apply (p : Fin 4194304) :
    val_main_v37 (F := Ideal) x0 x1 x3 x4 (ix1 p)
      = PairLoss.pairAt (val_main_v1 (F := Ideal) x0) (val_main_v3 (F := Ideal) x1) (Lr x3) (Rr x4) p := by
  rw [val_main_v37_apply, val_main_v36_apply, v19_apply, v35_apply]
  rfl

/-- THE REFERENCE'S RESULT: the loss function of its two tables and its two row maps. -/
theorem result_eq :
    val_main_v39 (F := Ideal) x0 x1 x3 x4
      = PairLoss.lossOf (PairLoss.total (val_main_v1 (F := Ideal) x0) (val_main_v3 (F := Ideal) x1) (Lr x3) (Rr x4)) := by
  funext i
  rw [val_main_v39_apply, val_main_v38_apply, sum_idx1]
  show Ideal.div (Ideal.ofBits .f32 0x00000000#32 + ∑ p : Fin 4194304, val_main_v37 (F := Ideal) x0 x1 x3 x4 (ix1 p))
      (Ideal.ofBits .f32 0x4A800000#32) = Ideal.div _ (Ideal.ofBits .f32 0x4A800000#32)
  refine congrArg (fun s => Ideal.div s (Ideal.ofBits .f32 0x4A800000#32)) ?_
  refine (congrArg (· + ∑ p : Fin 4194304, val_main_v37 (F := Ideal) x0 x1 x3 x4 (ix1 p)) Ideal.ofBits_zero_f32).trans ?_
  refine (zero_add _).trans ?_
  exact Finset.sum_congr rfl fun p _ => v37_apply x0 x1 x3 x4 p

end Cert.ReferenceIdeal.RefValue

end
-- ==== Proof.lean ====
/-
  The pairwise-distance loss: for 4194304 sampled pairs of residues, the Euclidean distance between the two residues' middle
  points in `inputs` minus the same distance in `target`, squared, averaged over the pairs.

  The reference gathers the two rows of each pair from the [262144 × 3] tables of middle points, takes the two norms, and
  takes the mean of the squared differences: a sum over all pairs divided by 4194304. The kernel's host code lays the tables
  out coordinate-major, gathers columns at the same normalised index columns (both programs read an index signed and
  clamped into the table), and its pallas_call walks the pair axis in 128 blocks of 32768 pairs, adding each block's sum of
  squared differences into a [1 × 1] accumulator that starts from zero and is written out after the last block; the host
  then divides by the same 4194304. Over the extended reals both are ONE function of the two tables and the two row maps:
  the blocks' sums add up to the sum over all pairs by commutativity and associativity of addition alone, so the inputs'
  finiteness is never used. The two square roots are the same function, and the two divisions are by the same word.

  The frames of the two kernel programs and the reference's run are the generated ones; the ideal pass rewrote nothing.
-/
import proofs.«136389_j83056077570644_1_alg».proof.Defs
import proofs.«136389_j83056077570644_1_alg».proof.Proof.Gen.Kernel
import proofs.«136389_j83056077570644_1_alg».proof.Proof.Gen.Kernel.Skeleton
import proofs.«136389_j83056077570644_1_alg».proof.Proof.Gen.Kernel.Launch
import proofs.«136389_j83056077570644_1_alg».proof.Proof.Gen.Kernel.Points
import proofs.«136389_j83056077570644_1_alg».proof.Proof.Gen.Kernel.Frame
import proofs.«136389_j83056077570644_1_alg».proof.Proof.Gen.KernelIdeal
import proofs.«136389_j83056077570644_1_alg».proof.Proof.Gen.KernelIdeal.Skeleton
import proofs.«136389_j83056077570644_1_alg».proof.Proof.Gen.KernelIdeal.Launch
import proofs.«136389_j83056077570644_1_alg».proof.Proof.Gen.KernelIdeal.Points
import proofs.«136389_j83056077570644_1_alg».proof.Proof.Gen.KernelIdeal.Frame
import proofs.«136389_j83056077570644_1_alg».proof.Proof.Gen.ReferenceIdeal
import proofs.«136389_j83056077570644_1_alg».proof.Proof.Gen.ReferenceIdeal.Run
import proofs.«136389_j83056077570644_1_alg».proof.Proof.Gen.ReferenceIdeal.Read
import proofs.«136389_j83056077570644_1_alg».proof.Proof.Gen.Pre_finite_inputs
import proofs.«136389_j83056077570644_1_alg».proof.Proof.KernelAcc
import proofs.«136389_j83056077570644_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs' tables and row maps are the same terms of the arguments -/

theorem tabIn_eq (x : FVec Ideal Cert.ReferenceIdeal.S262144x3x3 .f32) :
    Cert.ReferenceIdeal.Read.val_main_v1 (F := Ideal) x = Cert.KernelIdeal.Arrays.tabOf (F := Ideal) x := rfl
theorem tabTg_eq (x : FVec Ideal Cert.ReferenceIdeal.S262144x3x3 .f32) :
    Cert.ReferenceIdeal.Read.val_main_v3 (F := Ideal) x = Cert.KernelIdeal.Arrays.tabOf (F := Ideal) x := rfl
theorem rowL_eq (v : IVec Cert.ReferenceIdeal.S4194304 32) :
    Cert.ReferenceIdeal.RefValue.Lr v = Cert.KernelIdeal.Arrays.rowOf v := rfl
theorem rowR_eq (v : IVec Cert.ReferenceIdeal.S4194304 32) :
    Cert.ReferenceIdeal.RefValue.Rr v = Cert.KernelIdeal.Arrays.rowOf v := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result ends at the loss function of its arguments' tables and row maps (the kernel's
    run read as a value) and the reference's at the same function of arguments that agree. -/
theorem algebraic : Cert.algebraic_KernelIdeal_ReferenceIdeal := by
  intro m ρ m' ρ' _ hagree
  refine ⟨fun c => Cert.PairLoss.lossOf (Cert.PairLoss.total (Cert.KernelIdeal.Acc.Tin m c) (Cert.KernelIdeal.Acc.Ttg m c)
    (Cert.KernelIdeal.Acc.Lr m c) (Cert.KernelIdeal.Acc.Rr m c)), Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq, (hagree c).1, (hagree c).2.1,
    (hagree c).2.2.2.1, (hagree c).2.2.2.2, tabIn_eq, tabTg_eq, rowL_eq, rowR_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
